-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x128 : Shape := ⟨2, ![128, 128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S16384x128 .f32) (main_arg1 : FVec F S128x128 .f32) (main_arg2 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S16384x128 : Shape := ⟨2, ![16384, 128]⟩
abbrev S128x128 : Shape := ⟨2, ![128, 128]⟩
abbrev S128 : Shape := ⟨1, ![128]⟩
abbrev S1x128 : Shape := ⟨2, ![1, 128]⟩
abbrev S256x128 : Shape := ⟨2, ![256, 128]⟩
abbrev S256x1x128 : Shape := ⟨3, ![256, 1, 128]⟩
abbrev S1x128x128 : Shape := ⟨3, ![1, 128, 128]⟩
abbrev S256x128x128 : Shape := ⟨3, ![256, 128, 128]⟩

abbrev nBuf : Space → Nat
  | .hbm => 6
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S1x128, .f32⟩
  | .hbm, ⟨5, _⟩ => ⟨S16384x128, .f32⟩
  | .local _ .vmem, ⟨0, _⟩ => ⟨S256x128, .f32⟩
  | .local _ .vmem, ⟨1, _⟩ => ⟨S256x128, .f32⟩
  | .local _ .vmem, ⟨2, _⟩ => ⟨S128x128, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  shapeCasts_S128_S1x128 : S128.ShapeCasts S1x128
  inb_S256x128_S256x128_0_0 : ∀ a, (![0, 0] : Fin 2 → Nat) a + S256x128.size a ≤ S256x128.size a
  h_S256x128 : 0 < S256x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S256x128_S256x1x128 : S256x128.ShapeCasts S256x1x128
  shapeCasts_S128x128_S1x128x128 : S128x128.ShapeCasts S1x128x128
  broadcasts_S256x1x128_S256x128x128 : S256x1x128.Broadcasts S256x128x128
  broadcasts_S1x128x128_S256x128x128 : S1x128x128.Broadcasts S256x128x128
  reduces_S256x128x128_S256x128 : S256x128x128.Reduces [2] S256x128
  broadcasts_S1x128_S256x128 : S1x128.Broadcasts S256x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .f32 = 32 ∨ (Rect.block (s := S16384x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S16384x128.size a
  hwx0_3 : ∀ i : grid0.Coords, EltTy.bits .f32 = 32 ∨ (Rect.block (s := S16384x128) S256x128.size (cc0_transform_3 i) (hinb0_3 i)).WholeWords (EltTy.packing .f32)

variable [Facts₀]

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x128 : Shape := ⟨2, ![128, 128]⟩
abbrev S128 : Shape := ⟨1, ![128]⟩
abbrev S16384x128x1 : Shape := ⟨3, ![16384, 128, 1]⟩
abbrev S1x128x128 : Shape := ⟨3, ![1, 128, 128]⟩
abbrev S16384x128x128 : Shape := ⟨3, ![16384, 128, 128]⟩
abbrev S_ : Shape := ⟨0, ![]⟩
abbrev S1x128 : Shape := ⟨2, ![1, 128]⟩

abbrev nBuf : Space → Nat
  | .hbm => 13
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S16384x128x1, .f32⟩
  | .hbm, ⟨4, _⟩ => ⟨S1x128x128, .f32⟩
  | .hbm, ⟨5, _⟩ => ⟨S16384x128x128, .f32⟩
  | .hbm, ⟨6, _⟩ => ⟨S16384x128x128, .f32⟩
  | .hbm, ⟨7, _⟩ => ⟨S16384x128x128, .f32⟩
  | .hbm, ⟨8, _⟩ => ⟨S_, .f32⟩
  | .hbm, ⟨9, _⟩ => ⟨S16384x128, .f32⟩
  | .hbm, ⟨10, _⟩ => ⟨S1x128, .f32⟩
  | .hbm, ⟨11, _⟩ => ⟨S16384x128, .f32⟩
  | .hbm, ⟨12, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S16384x128_S16384x128x1_0_1 : S16384x128.BroadcastsInDim S16384x128x1 (![0, 1] : Fin 2 → Fin S16384x128x1.rank)
  bcast_S128x128_S1x128x128_1_2 : S128x128.BroadcastsInDim S1x128x128 (![1, 2] : Fin 2 → Fin S1x128x128.rank)
  bcast_S16384x128x1_S16384x128x128_0_1_2 : S16384x128x1.BroadcastsInDim S16384x128x128 (![0, 1, 2] : Fin 3 → Fin S16384x128x128.rank)
  bcast_S1x128x128_S16384x128x128_0_1_2 : S1x128x128.BroadcastsInDim S16384x128x128 (![0, 1, 2] : Fin 3 → Fin S16384x128x128.rank)
  reducesTo_S16384x128x128_S16384x128_d1 : S16384x128x128.ReducesTo [1] S16384x128
  h_S_ : 0 < S_.numel
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)

variable [Facts₀]

class Facts : Prop extends Facts₀ where

variable [Facts]
-- ==== Proof.TropicalSpec.lean ====
/-
  The max-plus ("tropical") dense layer on the extended reals, as ONE function of the three argument arrays,
  and the two readings that meet it.

  For x : [B, I], w : [I, U], b : [U] the layer is

      out[r, u] = max ( max_{i < I} ( x[r, i] + w[i, u] ) , b[u] ),

  the inner maximum taken from −∞ (the pattern 0xFF800000 both programs print), so that it is the fold of `max` over
  the I coordinates of the contracted axis. Both programs compute exactly this: the only differences are the order of
  the axes of the rank-3 array of sums (the kernel puts the contracted axis last and reads w transposed, the reference
  puts it in the middle) and the tiling of the rows. A maximum over a finite set does not depend on either, and no
  law of the extended reals beyond that is used: nothing here needs the inputs finite.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Tropical

open Idealize.ShloMosaic Idealize.ShloMosaic.ValueIdx

/-- The value both programs start their maximum from: the f32 pattern of −∞, read at the extended reals. -/
abbrev start : EReal := Ideal.ofBits .f32 0xFF800000#32

/-- One entry of the layer: the maximum over the contracted coordinate of `row i + col i`, from `start`, then the
    maximum with the bias entry. -/
def entry (row col : Fin 128 → EReal) (bias : EReal) : EReal :=
  max ((Finset.univ : Finset (Fin 128)).fold max start fun i => row i + col i) bias

/-- THE LAYER: `out[r, u] = max (max_i (x[r, i] + w[i, u])) b[u]` over the whole arrays. -/
def dense (x : FVec Ideal ⟨2, ![16384, 128]⟩ .f32) (w : FVec Ideal ⟨2, ![128, 128]⟩ .f32) (b : FVec Ideal ⟨1, ![128]⟩ .f32) :
    FVec Ideal ⟨2, ![16384, 128]⟩ .f32 :=
  fun j => entry (fun i => x (ix2 (j 0) i)) (fun i => w (ix2 i (j 1))) (b (ix1 (j 1)))

theorem dense_apply (x : FVec Ideal ⟨2, ![16384, 128]⟩ .f32) (w : FVec Ideal ⟨2, ![128, 128]⟩ .f32) (b : FVec Ideal ⟨1, ![128]⟩ .f32)
    (r : Fin 16384) (u : Fin 128) :
    dense x w b (ix2 r u) = entry (fun i => x (ix2 r i)) (fun i => w (ix2 i u)) (b (ix1 u)) := rfl

/-! ## The kernel's block: 256 rows against the transposed weights, the contracted axis last -/

/-- The kernel's row maximum on a block of 256 rows. The body adds `x[p, ·]` (cast to [256, 1, 128] and broadcast over
    the middle axis) to `wt[u, ·]` (cast to [1, 128, 128] and broadcast over the first) and takes the maximum over the
    LAST axis: at (p, u) that is the fold of `max` over k of `x[p, k] + wt[u, k]`. -/
theorem block_rowmax (x : FVec Ideal ⟨2, ![256, 128]⟩ .f32) (wt : FVec Ideal ⟨2, ![128, 128]⟩ .f32)
    (hx : (⟨2, ![256, 128]⟩ : Shape).ShapeCasts ⟨3, ![256, 1, 128]⟩)
    (hw : (⟨2, ![128, 128]⟩ : Shape).ShapeCasts ⟨2, ![128, 128]⟩)
    (hw' : (⟨2, ![128, 128]⟩ : Shape).ShapeCasts ⟨3, ![1, 128, 128]⟩)
    (bx : (⟨3, ![256, 1, 128]⟩ : Shape).Broadcasts ⟨3, ![256, 128, 128]⟩)
    (bw : (⟨3, ![1, 128, 128]⟩ : Shape).Broadcasts ⟨3, ![256, 128, 128]⟩)
    (hr : (⟨3, ![256, 128, 128]⟩ : Shape).Reduces [2] ⟨2, ![256, 128]⟩)
    (hφ : FKind.Formats .f32) (hacc : (0xFF800000#32 : BitVec 32) = FKind.maximumf.neutral .f32 hφ)
    (p : Fin 256) (u : Fin 128) :
    multiReduction .maximumf [2] ⟨2, ![256, 128]⟩
        (addf (broadcastTo ⟨3, ![256, 128, 128]⟩ (shapeCast ⟨3, ![256, 1, 128]⟩ x hx) bx)
          (broadcastTo ⟨3, ![256, 128, 128]⟩ (shapeCast ⟨3, ![1, 128, 128]⟩ (shapeCast ⟨2, ![128, 128]⟩ wt hw) hw') bw))
        0xFF800000#32 hr hφ hacc (ix2 p u)
      = (Finset.univ : Finset (Fin 128)).fold max start fun k => x (ix2 p k) + wt (ix2 u k) := by
  refine (Ideal.multiReduction_maximumf_single _ _ hr hφ hacc (ix2 p u)).trans ?_
  have hterm : ∀ k : Fin 128,
      (addf (broadcastTo ⟨3, ![256, 128, 128]⟩ (shapeCast ⟨3, ![256, 1, 128]⟩ x hx) bx)
          (broadcastTo ⟨3, ![256, 128, 128]⟩ (shapeCast ⟨3, ![1, 128, 128]⟩ (shapeCast ⟨2, ![128, 128]⟩ wt hw) hw') bw))
        (hr.lift (ix2 p u) k) = x (ix2 p k) + wt (ix2 u k) := by
    intro k
    have hl : hr.lift (ix2 p u) k = ix3 p u k :=
      funext fun a => Fin.ext (by match a with | ⟨0, _⟩ => rfl | ⟨1, _⟩ => rfl | ⟨2, _⟩ => rfl)
    rw [hl]
    show (broadcastTo ⟨3, ![256, 128, 128]⟩ (shapeCast ⟨3, ![256, 1, 128]⟩ x hx) bx) (ix3 p u k)
        + (broadcastTo ⟨3, ![256, 128, 128]⟩ (shapeCast ⟨3, ![1, 128, 128]⟩ (shapeCast ⟨2, ![128, 128]⟩ wt hw) hw') bw) (ix3 p u k)
        = x (ix2 p k) + wt (ix2 u k)
    have e1 : (broadcastTo ⟨3, ![256, 128, 128]⟩ (shapeCast ⟨3, ![256, 1, 128]⟩ x hx) bx) (ix3 p u k) = x (ix2 p k) := by
      refine (broadcastTo_apply _ bx (ix3 p u k) (ix3 p (0 : Fin 1) k) fun a => ?_).trans ?_
      · match a with
        | ⟨0, _⟩ => show p.val = if (256 : Nat) = 1 then 0 else p.val; rw [if_neg (by decide)]
        | ⟨1, _⟩ => show 0 = if (1 : Nat) = 1 then 0 else u.val; rw [if_pos rfl]
        | ⟨2, _⟩ => show k.val = if (128 : Nat) = 1 then 0 else k.val; rw [if_neg (by decide)]
      · refine shapeCast_apply x hx (ix3 p (0 : Fin 1) k) (ix2 p k) ?_
        rw [Shape.rowMajor_val_two, Shape.rowMajor_val_three]
        show p.val * 128 + k.val = (p.val * 1 + 0) * 128 + k.val
        omega
    have e2 : (broadcastTo ⟨3, ![256, 128, 128]⟩ (shapeCast ⟨3, ![1, 128, 128]⟩ (shapeCast ⟨2, ![128, 128]⟩ wt hw) hw') bw) (ix3 p u k)
        = wt (ix2 u k) := by
      refine (broadcastTo_apply _ bw (ix3 p u k) (ix3 (0 : Fin 1) u k) fun a => ?_).trans ?_
      · match a with
        | ⟨0, _⟩ => show 0 = if (1 : Nat) = 1 then 0 else p.val; rw [if_pos rfl]
        | ⟨1, _⟩ => show u.val = if (128 : Nat) = 1 then 0 else u.val; rw [if_neg (by decide)]
        | ⟨2, _⟩ => show k.val = if (128 : Nat) = 1 then 0 else k.val; rw [if_neg (by decide)]
      · rw [shapeCast_ab_1ab_apply, shapeCast_self]
    rw [e1, e2]
  exact congrArg (fun f : Fin 128 → EReal => (Finset.univ : Finset (Fin 128)).fold max start f) (funext hterm)

/-- The bias row of a block: the [1, 128] row (cast to itself) broadcast down the 256 rows reads, at (p, u), the row at u. -/
theorem block_bias (bias : FVec Ideal ⟨2, ![1, 128]⟩ .f32)
    (hb : (⟨2, ![1, 128]⟩ : Shape).ShapeCasts ⟨2, ![1, 128]⟩)
    (bb : (⟨2, ![1, 128]⟩ : Shape).Broadcasts ⟨2, ![256, 128]⟩) (p : Fin 256) (u : Fin 128) :
    broadcastTo ⟨2, ![256, 128]⟩ (shapeCast ⟨2, ![1, 128]⟩ bias hb) bb (ix2 p u) = bias (ix2 (0 : Fin 1) u) := by
  rw [broadcastTo_1b_ab_apply, shapeCast_self]

/-! ## The reference's array of sums: the contracted axis in the middle -/

/-- The reference's maximum over the MIDDLE axis of a [16384, 128, 128] array, from a rank-0 initial value: at (r, u)
    the fold of `max` over k of the array at (r, k, u). -/
theorem host_rowmax (X : FVec Ideal ⟨3, ![16384, 128, 128]⟩ .f32) (init : FVec Ideal ⟨0, ![]⟩ .f32)
    (h' : (⟨3, ![16384, 128, 128]⟩ : Shape).ReducesTo [1] ⟨2, ![16384, 128]⟩) (hu : 0 < (⟨0, ![]⟩ : Shape).numel)
    (r : Fin 16384) (u : Fin 128) :
    Host.reduce (FloatOps.maximumf (F := Ideal) (φ := .f32)) X init h' hu (ix2 r u)
      = (Finset.univ : Finset (Fin 128)).fold max (init ix0) fun k => X (ix3 r k u) := by
  have h : (⟨3, ![16384, 128, 128]⟩ : Shape).Reduces [1] ⟨2, ![16384, 128]⟩ := by decide
  refine (Host.reduce_eq_fold_single (FloatOps.maximumf (F := Ideal) (φ := .f32)) X init h' h hu (ix2 r u)).trans ?_
  have hi : init (Shape.Idx.first hu) = init ix0 := congrArg init (funext fun a => a.elim0)
  rw [hi]
  have hterm : ∀ k : Fin 128, X (h.lift (ix2 r u) k) = X (ix3 r k u) := fun k =>
    congrArg X (funext fun a => Fin.ext (by match a with | ⟨0, _⟩ => rfl | ⟨1, _⟩ => rfl | ⟨2, _⟩ => rfl))
  exact congrArg (fun f : Fin 128 → EReal => (Finset.univ : Finset (Fin 128)).fold max (init ix0) f) (funext hterm)

end Cert.Tropical

end
-- ==== Proof.KernelBlocks.lean ====
/-
  The kernel's output array is the max-plus dense layer.

  The grid has 64 points; point t stages rows 256·t … 256·t + 255 of x, the whole transposed weight matrix
  wt[u, i] = w[i, u] (written by the transpose that precedes the call) and the bias as one row (written by the
  reshape that precedes it), and writes rows 256·t … 256·t + 255 of the result. On its block the body leaves, at (p, u),

      max ( max_k ( x[256·t + p, k] + wt[u, k] ) , bias[0, u] )  =  max ( max_k ( x[256·t + p, k] + w[k, u] ) , b[u] ),

  which is entry (256·t + p, u) of `Cert.Tropical.dense`. The 64 blocks tile the 16384 rows, so the array after the run
  is `dense` of the three arguments.
-/
import proofs.«135416_j5609227288817_1_alg».proof.Proof.KernelIdealValue
import proofs.«135416_j5609227288817_1_alg».proof.Proof.TropicalSpec
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The index maps -/

/-- Over the 64 grid points: the x window and the output window are at block row t, column 0; the weight and bias windows
    never move. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := Nat.lt_of_lt_of_eq t.isLt N_0

/-- Row p of point t's block is row 256·t + p of the array. -/
def row (t : Fin cfg0.N) (p : Fin 256) : Fin 16384 :=
  ⟨t.val * 256 + p.val, by have := point_lt t; have := p.isLt; omega⟩

/-! ## What the region finds in the two arrays the host operations wrote -/

/-- The weight window's array is the transpose of the weight argument. -/
theorem wt_array (c : Dev nD) :
    (V m c main_call0_v0 : S128x128.Idx → EReal)
      = transpose S128x128 [1, 0] (m ((c : Thread nD τ).loc main_arg1)) transposes_S128x128_S128x128_1_0 := by
  dsimp only [V, hostOps0]; after_results; rfl

/-- The bias window's array is the bias argument as one row. -/
theorem bias_array (c : Dev nD) :
    (V m c main_call0_v1 : S1x128.Idx → EReal)
      = shapeCast S1x128 (m ((c : Thread nD τ).loc main_arg2)) shapeCasts_S128_S1x128 := by
  dsimp only [V, hostOps0]; after_results; rfl

/-! ## The blocks the body loads, read at an index -/

theorem x_block (c : Dev nD) (t : Fin cfg0.N) (p : Fin 256) (k : Fin 128) :
    iblk m c 0 t (ix2 p k) = m ((c : Thread nD τ).loc main_arg0) (ix2 (row t p) k) := by
  show V m c main_arg0 (((cfg0.win 0).blk t).view.emb (ix2 p k)) = _
  rw [V_main_arg0 m c]
  refine congrArg _ (funext fun a => Fin.ext ?_)
  obtain ⟨e0, e1, -⟩ := block_indices t
  match a with
  | ⟨0, _⟩ => show win0_0.index t (0 : Fin 2) * 256 + 1 * p.val = t.val * 256 + p.val; rw [e0]; omega
  | ⟨1, _⟩ => show win0_0.index t (1 : Fin 2) * 128 + 1 * k.val = k.val; rw [e1]; omega

theorem wt_block (c : Dev nD) (t : Fin cfg0.N) (u k : Fin 128) :
    iblk m c 1 t (ix2 u k) = m ((c : Thread nD τ).loc main_arg1) (ix2 k u) := by
  show V m c main_call0_v0 (((cfg0.win 1).blk t).view.emb (ix2 u k)) = _
  have he : ((cfg0.win 1).blk t).view.emb (ix2 u k) = ix2 u k := by
    refine funext fun a => Fin.ext ?_
    obtain ⟨-, -, e2, e3, -⟩ := block_indices t
    match a with
    | ⟨0, _⟩ => show win0_1.index t (0 : Fin 2) * 128 + 1 * u.val = u.val; rw [e2]; omega
    | ⟨1, _⟩ => show win0_1.index t (1 : Fin 2) * 128 + 1 * k.val = k.val; rw [e3]; omega
  rw [he, wt_array m c]
  exact transpose_ix2_apply _ _ u k

theorem bias_block (c : Dev nD) (t : Fin cfg0.N) (u : Fin 128) :
    iblk m c 2 t (ix2 (0 : Fin 1) u) = m ((c : Thread nD τ).loc main_arg2) (ix1 u) := by
  show V m c main_call0_v1 (((cfg0.win 2).blk t).view.emb (ix2 (0 : Fin 1) u)) = _
  have he : ((cfg0.win 2).blk t).view.emb (ix2 (0 : Fin 1) u) = ix2 (0 : Fin 1) u := by
    refine funext fun a => Fin.ext ?_
    obtain ⟨-, -, -, -, e4, e5, -⟩ := block_indices t
    match a with
    | ⟨0, _⟩ => show win0_2.index t (0 : Fin 2) * 1 + 1 * 0 = 0; rw [e4]
    | ⟨1, _⟩ => show win0_2.index t (1 : Fin 2) * 128 + 1 * u.val = u.val; rw [e5]; omega
  rw [he, bias_array m c]
  exact shapeCast_a_1a_apply _ _ (0 : Fin 1) u

theorem out_index (t : Fin cfg0.N) (p : Fin 256) (u : Fin 128) :
    ((cfg0.win 3).blk t).view.emb (ix2 p u) = ix2 (row t p) u := by
  refine funext fun a => Fin.ext ?_
  obtain ⟨-, -, -, -, -, -, e6, e7⟩ := block_indices t
  match a with
  | ⟨0, _⟩ => show win0_3.index t (0 : Fin 2) * 256 + 1 * p.val = t.val * 256 + p.val; rw [e6]; omega
  | ⟨1, _⟩ => show win0_3.index t (1 : Fin 2) * 128 + 1 * u.val = u.val; rw [e7]; omega

/-! ## The body's stored value at an index -/

/-- On any three loaded blocks the stored value at (p, u) is the layer's entry of row p of the first, row u of the second
    (the transposed weights) and the one row of the third at u. -/
theorem payload_entry (x : Vec Ideal S256x128 .f32) (wt : Vec Ideal S128x128 .f32) (bias : Vec Ideal S1x128 .f32)
    (p : Fin 256) (u : Fin 128) :
    k0_pay1 x wt bias (ix2 p u)
      = Cert.Tropical.entry (fun k => x (ix2 p k)) (fun k => wt (ix2 u k)) (bias (ix2 (0 : Fin 1) u)) := by
  rw [ValueP.lay3_0_eq, maximumf_apply]
  rw [Cert.Tropical.block_rowmax x wt Facts₀.shapeCasts_S256x128_S256x1x128 Facts₀.shapeCasts_S128x128_S128x128
      Facts₀.shapeCasts_S128x128_S1x128x128 Facts₀.broadcasts_S256x1x128_S256x128x128 Facts₀.broadcasts_S1x128x128_S256x128x128
      Facts₀.reduces_S256x128x128_S256x128 (.inl rfl) rfl p u,
    Cert.Tropical.block_bias bias Facts₀.shapeCasts_S1x128_S1x128 Facts₀.broadcasts_S1x128_S256x128 p u]
  rfl

/-! ## From the blocks to the array -/

/-- What point t writes back is block t of the layer of the three arguments. -/
theorem flushed_eq (c : Dev nD) (t : Fin cfg0.N) :
    (dats m 0 c).flushed 3 t = ((cfg0.win 3).blk t).view.read (Elt Ideal)
      (Cert.Tropical.dense (m ((c : Thread nD τ).loc main_arg0)) (m ((c : Thread nD τ).loc main_arg1))
        (m ((c : Thread nD τ).loc main_arg2))) := by
  rw [ValueP.flushed3]
  unfold out0_3
  rw [View.canon_unit_zero zero_offsets]
  simp only [View.ld_unit_zero (S := S256x128) zero_offsets, View.ld_unit_zero (S := S128x128) zero_offsets,
    View.ld_unit_zero (S := S1x128) zero_offsets]
  funext j
  obtain ⟨p, u, rfl⟩ : ∃ (p : Fin 256) (u : Fin 128), j = ix2 p u := ⟨j 0, j 1, eq_ix2 j⟩
  show k0_pay1 (iblk m c 0 t) (iblk m c 1 t) (iblk m c 2 t) (ix2 p u)
    = Cert.Tropical.dense (m ((c : Thread nD τ).loc main_arg0)) (m ((c : Thread nD τ).loc main_arg1))
        (m ((c : Thread nD τ).loc main_arg2)) (((cfg0.win 3).blk t).view.emb (ix2 p u))
  rw [out_index t p u, Cert.Tropical.dense_apply]
  refine (payload_entry (iblk m c 0 t) (iblk m c 1 t) (iblk m c 2 t) p u).trans ?_
  simp only [x_block m c t p, wt_block m c t u, bias_block m c t u]

/-- An index of the array is in point t's block iff each coordinate is in the block's range on its axis. -/
theorem mem_block (t : Fin cfg0.N) (i : S16384x128.Idx) :
    i ∈ ((cfg0.win 3).blk t).view.set ↔ ∀ a : Fin 2, win0_3.index t a * S256x128.size a ≤ (i a).val
      ∧ (i a).val < win0_3.index t a * S256x128.size a + S256x128.size a := by
  show i ∈ ((View.whole main_v0).slice (win0_3.rect t)).set ↔ _
  rw [View.set_slice_whole, Rect.mem_set_unit]
  exact Iff.rfl

/-- Every row is in the block of the point its row number divided by 256 names. -/
theorem cover (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  obtain ⟨t, ht⟩ : ∃ t : Fin cfg0.N, t.val = (i 0).val / 256 :=
    ⟨⟨(i 0).val / 256, Nat.lt_of_lt_of_eq (by omega : (i 0).val / 256 < 64) N_0.symm⟩, rfl⟩
  refine ⟨t, flush0_3 t, ?_⟩
  rw [mem_block]
  obtain ⟨-, -, -, -, -, -, e6, e7⟩ := block_indices t
  intro a
  match a with
  | ⟨0, _⟩ =>
    show win0_3.index t (0 : Fin 2) * 256 ≤ (i 0).val ∧ (i 0).val < win0_3.index t (0 : Fin 2) * 256 + 256
    rw [e6, ht]; omega
  | ⟨1, _⟩ =>
    show win0_3.index t (1 : Fin 2) * 128 ≤ (i 1).val ∧ (i 1).val < win0_3.index t (1 : Fin 2) * 128 + 128
    rw [e7]; omega

/-- THE ARRAY after the run is the layer of the three arguments. -/
theorem final (c : Dev nD) :
    (dats m 0 c).arrAt 3 cfg0.N
      = Cert.Tropical.dense (m ((c : Thread nD τ).loc main_arg0)) (m ((c : Thread nD τ).loc main_arg1))
          (m ((c : Thread nD τ).loc main_arg2)) :=
  (dats m 0 c).arrAt_eq_of_cover 3 _ (fun t _ => flushed_eq m c t) cover

/-- The kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v0)
        = Cert.Tropical.dense (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (ValueP.run_blocks m ρ)

end Cert.KernelIdeal.Blocks

end
-- ==== Proof.ReferenceValue.lean ====
/-
  The reference's result is the max-plus dense layer.

  The reference broadcasts x to [16384, 128, 1] and then over the last axis, w to [1, 128, 128] and then over the first,
  adds them — the entry at (r, k, u) is x[r, k] + w[k, u] —, takes the maximum over the MIDDLE axis from −∞, and then
  the maximum with the bias broadcast down the rows. Read at (r, u) this is `Cert.Tropical.dense` word for word.
-/
import proofs.«135416_j5609227288817_1_alg».proof.Proof.Gen.ReferenceIdeal.Read
import proofs.«135416_j5609227288817_1_alg».proof.Proof.TropicalSpec

noncomputable section

namespace Cert.ReferenceIdeal.RefValue

open Cert.ReferenceIdeal Cert.ReferenceIdeal.Gen Cert.ReferenceIdeal.Read
open Idealize.ShloMosaic Idealize.ShloMosaic.ValueIdx

/-- The array of sums at (r, k, u) is `x[r, k] + w[k, u]`. -/
theorem sums_apply (x0 : FVec Ideal S16384x128 .f32) (x1 : FVec Ideal S128x128 .f32) (r : Fin 16384) (k u : Fin 128) :
    val_main_v4 (F := Ideal) x0 x1 (ix3 r k u) = x0 (ix2 r k) + x1 (ix2 k u) := by
  rw [val_main_v4_apply, val_main_v2_apply, val_main_v0_apply, val_main_v3_apply, val_main_v1_apply]
  have e0 : idx_main_v0 (idx_main_v2 (ix3 r k u)) = ix2 r k :=
    funext fun a => Fin.ext (by match a with | ⟨0, _⟩ => rfl | ⟨1, _⟩ => rfl)
  have e1 : idx_main_v1 (idx_main_v3 (ix3 r k u)) = ix2 k u :=
    funext fun a => Fin.ext (by match a with | ⟨0, _⟩ => rfl | ⟨1, _⟩ => rfl)
  rw [e0, e1]
  rfl

/-- The bias broadcast to a row and then down the rows reads, at (r, u), the bias at u. -/
theorem bias_apply (x2 : FVec Ideal S128 .f32) (r : Fin 16384) (u : Fin 128) :
    val_main_v7 (F := Ideal) x2 (ix2 r u) = x2 (ix1 u) := by
  rw [val_main_v7_apply, val_main_v6_apply]
  exact congrArg x2 (funext fun a => Fin.ext (by match a with | ⟨0, _⟩ => rfl))

/-- THE REFERENCE'S RESULT IS THE LAYER. -/
theorem result_eq_dense (x0 : FVec Ideal S16384x128 .f32) (x1 : FVec Ideal S128x128 .f32) (x2 : FVec Ideal S128 .f32) :
    val_main_v8 (F := Ideal) x0 x1 x2 = Cert.Tropical.dense x0 x1 x2 := by
  funext j
  obtain ⟨r, u, rfl⟩ : ∃ (r : Fin 16384) (u : Fin 128), j = ix2 r u := ⟨j 0, j 1, eq_ix2 j⟩
  rw [val_main_v8_apply, Cert.Tropical.dense_apply, bias_apply]
  unfold val_main_v5
  rw [Cert.Tropical.host_rowmax]
  simp only [sums_apply]
  rfl

end Cert.ReferenceIdeal.RefValue

end
-- ==== Proof.lean ====
/-
  A max-plus ("tropical") dense layer: for x : f32[16384, 128], w : f32[128, 128], b : f32[128],

      out[r, u] = max ( max_{i < 128} ( x[r, i] + w[i, u] ) , b[u] ).

  The kernel tiles the 16384 rows into 64 blocks of 256, transposes w and reshapes b to one row on the host before the
  call, and in the body forms x[p, k] + wt[u, k] over [256, 128, 128], takes the maximum over the LAST axis from −∞ and
  then the maximum with the bias row. The reference forms x[r, k] + w[k, u] over [16384, 128, 128], takes the maximum
  over the MIDDLE axis from the same −∞ and then the maximum with the bias. On the extended reals both are the fold of
  `max` over the 128 coordinates of the contracted axis of the same terms (wt[u, k] = w[k, u]), so the two results are
  ONE function of the arguments, `Cert.Tropical.dense` (Proof/TropicalSpec.lean): the kernel's output array is it block
  by block and the blocks tile the array (Proof/KernelBlocks.lean), and the reference's result is it index by index
  (Proof/ReferenceValue.lean). A maximum of a finite family does not depend on the order or the tiling, and nothing else
  is used: the precondition (every input finite) is never opened. The ideal pass rewrote nothing, so `preserves` is
  trivial; the frames are the generated ones, the reference's its run with the result dropped.
-/
import proofs.«135416_j5609227288817_1_alg».proof.Defs
import proofs.«135416_j5609227288817_1_alg».proof.Proof.Gen.Kernel
import proofs.«135416_j5609227288817_1_alg».proof.Proof.Gen.Kernel.Skeleton
import proofs.«135416_j5609227288817_1_alg».proof.Proof.Gen.Kernel.Launch
import proofs.«135416_j5609227288817_1_alg».proof.Proof.Gen.Kernel.Points
import proofs.«135416_j5609227288817_1_alg».proof.Proof.Gen.Kernel.Frame
import proofs.«135416_j5609227288817_1_alg».proof.Proof.Gen.KernelIdeal
import proofs.«135416_j5609227288817_1_alg».proof.Proof.Gen.KernelIdeal.Skeleton
import proofs.«135416_j5609227288817_1_alg».proof.Proof.Gen.KernelIdeal.Launch
import proofs.«135416_j5609227288817_1_alg».proof.Proof.Gen.KernelIdeal.Points
import proofs.«135416_j5609227288817_1_alg».proof.Proof.Gen.KernelIdeal.Frame
import proofs.«135416_j5609227288817_1_alg».proof.Proof.Gen.ReferenceIdeal
import proofs.«135416_j5609227288817_1_alg».proof.Proof.Gen.Pre_finite_inputs
import proofs.«135416_j5609227288817_1_alg».proof.Proof.Gen.ReferenceIdeal.Run
import proofs.«135416_j5609227288817_1_alg».proof.Proof.Gen.ReferenceIdeal.Read
import proofs.«135416_j5609227288817_1_alg».proof.Proof.TropicalSpec
import proofs.«135416_j5609227288817_1_alg».proof.Proof.KernelIdealValue
import proofs.«135416_j5609227288817_1_alg».proof.Proof.KernelBlocks
import proofs.«135416_j5609227288817_1_alg».proof.Proof.ReferenceValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference is ten host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was printed for the extended reals. -/
theorem preserves : Cert.preserves_Kernel_KernelIdeal := trivial

/-- Both programs end with the max-plus dense layer of arguments that agree. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq_dense,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
